-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S512x1024 : Shape := ⟨2, ![512, 1024]⟩
abbrev S512 : Shape := ⟨1, ![512]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x2048x1024 .f32) (main_arg1 : FVec F S512x1024 .f32) (main_arg2 : FVec F S512 .f32) (main_arg3 : FVec F S512x1024 .f32) (main_arg4 : FVec F S512 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_v13 main_v16
-- ==== Kernel.lean ====
abbrev S8x2048x1024 : Shape := ⟨3, ![8, 2048, 1024]⟩
abbrev S512x1024 : Shape := ⟨2, ![512, 1024]⟩
abbrev S512 : Shape := ⟨1, ![512]⟩
abbrev S1024x512 : Shape := ⟨2, ![1024, 512]⟩
abbrev S1024x1024 : Shape := ⟨2, ![1024, 1024]⟩
abbrev S1024 : Shape := ⟨1, ![1024]⟩
abbrev S1x1024 : Shape := ⟨2, ![1, 1024]⟩
abbrev S8x2048x512 : Shape := ⟨3, ![8, 2048, 512]⟩
abbrev S1x512x1024 : Shape := ⟨3, ![1, 512, 1024]⟩
abbrev S1x512x512 : Shape := ⟨3, ![1, 512, 512]⟩
abbrev S512x512 : Shape := ⟨2, ![512, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S1024x512, .f32⟩
  | .hbm, ⟨6, _⟩ => ⟨S1024x512, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S8x2048x512, .f32⟩
  | .hbm, ⟨11, _⟩ => ⟨S8x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x1024_S1024x512_1_0 : S512x1024.Transposes [1, 0] S1024x512
  concatenates_S1024x512_S1024x512_S1024x1024_d1 : Shape.Concatenates [S1024x512, S1024x512] S1024x1024 1
  concatenates_S512_S512_S1024_d0 : Shape.Concatenates [S512, S512] S1024 0
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x512 : S512x1024.Slices ![0, 0] S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  slices_S512x1024_o0_512_S512x512 : S512x1024.Slices ![0, 512] S512x512
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x2048x512.size a
  hwx0_3 : ∀ i : grid0.Coords, EltTy.bits .f32 = 32 ∨ (Rect.block (s := S8x2048x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S8x2048x512.size a
  hwx0_4 : ∀ i : grid0.Coords, EltTy.bits .f32 = 32 ∨ (Rect.block (s := S8x2048x512) S1x512x512.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S512x1024 : Shape := ⟨2, ![512, 1024]⟩
abbrev S512 : Shape := ⟨1, ![512]⟩
abbrev S8x2048x512 : Shape := ⟨3, ![8, 2048, 512]⟩
abbrev S1x1x512 : Shape := ⟨3, ![1, 1, 512]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S2048x2 : Shape := ⟨2, ![2048, 2]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S8x2048x512, .f32⟩
  | .hbm, ⟨6, _⟩ => ⟨S1x1x512, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S1x1x512, .f32⟩
  | .hbm, ⟨11, _⟩ => ⟨S8x2048x512, .f32⟩
  | .hbm, ⟨12, _⟩ => ⟨S8x2048x512, .f32⟩
  | .hbm, ⟨13, _⟩ => ⟨S_, .f32⟩
  | .hbm, ⟨14, _⟩ => ⟨S8x2048x512, .f32⟩
  | .hbm, ⟨15, _⟩ => ⟨S8x2048x512, .f32⟩
  | .hbm, ⟨16, _⟩ => ⟨S8x2048x512, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x2048, .f32⟩
  | .hbm, ⟨21, _⟩ => ⟨S8x2048x1, .f32⟩
  | .hbm, ⟨22, _⟩ => ⟨S8x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x1, .i32⟩
  | .hbm, ⟨53, _⟩ => ⟨S2048x2, .i32⟩
  | .hbm, ⟨54, _⟩ => ⟨S8x2048, .f32⟩
  | .hbm, ⟨55, _⟩ => ⟨S8x2048x1, .f32⟩
  | .hbm, ⟨56, _⟩ => ⟨S8x2048x512, .f32⟩
  | .hbm, ⟨57, _⟩ => ⟨S8x2048x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_c : Ref sig .tc := ⟨.hbm, 37, rfl⟩
abbrev main_call0_v2 : Ref sig .tc := ⟨.hbm, 38, rfl⟩
abbrev main_call0_v3 : Ref sig .tc := ⟨.hbm, 39, rfl⟩
abbrev main_call0_c_0 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_c_1 : Ref sig .tc := ⟨.hbm, 44, rfl⟩
abbrev main_call0_v7 : Ref sig .tc := ⟨.hbm, 45, rfl⟩
abbrev main_call0_v8 : Ref sig .tc := ⟨.hbm, 46, rfl⟩
abbrev main_call0_c_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x512 : S_.BroadcastsInDim S8x2048x512 (![] : Fin 0 → Fin S8x2048x512.rank)
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S8x2048x1_S8x2048x512_0_1_2 : S8x2048x1.BroadcastsInDim S8x2048x512 (![0, 1, 2] : Fin 3 → Fin S8x2048x512.rank)
  dot_S8x2048x1024_S512x1024_S8x2048x512_2_1_01_0_n_n_wf : DotDims.WF S8x2048x1024 S512x1024 S8x2048x512 [2] [1] [0, 1] [0] [] []
  dot_S8x2048x1024_S8x2048x1024_S8x2048x2048_2_2_1_1_0_0_wf : DotDims.WF S8x2048x1024 S8x2048x1024 S8x2048x2048 [2] [2] [1] [1] [0] [0]
  gather_S8x2048x2048_S2048x2_S8x2048_0_12_n_n_12_1_811_wf : GatherDims.WF S8x2048x2048 S2048x2 S8x2048 [0] [1, 2] [] [1, 2] [] 1 ![8, 1, 1]

variable [Facts₀]

def dot_S8x2048x1024_S512x1024_S8x2048x512_2_1_01_0_n_n : DotDims S8x2048x1024 S512x1024 S8x2048x512 where
  lhsContracting := [2]
  rhsContracting := [1]
  lhsNonContracting := [0, 1]
  rhsNonContracting := [0]
  lhsBatch := []
  rhsBatch := []
  wf := dot_S8x2048x1024_S512x1024_S8x2048x512_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def gather_S8x2048x2048_S2048x2_S8x2048_0_12_n_n_12_1_811 : GatherDims S8x2048x2048 S2048x2 S8x2048 where
  offsetDims := [0]
  collapsedSliceDims := [1, 2]
  operandBatchingDims := []
  startIndicesBatchingDims := []
  startIndexMap := [1, 2]
  indexVectorDim := 1
  sliceSizes := ![8, 1, 1]
  wf := gather_S8x2048x2048_S2048x2_S8x2048_0_12_n_n_12_1_811_wf

class Facts : Prop extends Facts₀ where

variable [Facts]
-- ==== Proof.HeadSpec.lean ====
/-
  The two results as functions of the five argument arrays, index by index, on the extended reals.

  Both programs compute two affine heads of the same rows of x:
    mean   (p, q, e) = (sum over k of x[p, q, k] * W_mu[e, k]) + b_mu[e]
    spread (p, q, e) = exp (1/2 * ((sum over k of x[p, q, k] * W_logvar[e, k]) + b_logvar[e]))
  (the constant 1/2 is kept as its binary word: both sides spell the same word, so it is never evaluated).

  The reference multiplies the second result by the diagonal of a Gaussian Gram matrix of the rows of x,
    exp (-((|x_q|^2 + |x_q|^2) - 2 * <x_q, x_q>) / 2),
  where |x_q|^2 is summed from a zero initial value and <x_q, x_q> is a plain contraction. On a row of FINITE
  numbers the bracket is a real s + s - 2 s = 0, so the factor is exp 0 = 1 (gramDiag_eq_one); with an infinite
  entry the bracket is not 0, which is where the hypothesis "every input is finite" is used.
-/
import Idealize.ShloMosaic.Lib.ValueIdx
import Idealize.ShloMosaic.PureOps.Ideal

noncomputable section

open scoped BigOperators

namespace Cert.Heads

open Idealize.ShloMosaic Idealize.ShloMosaic.ValueIdx

/-- The shapes of x, of a weight matrix, of a bias and of a result. -/
abbrev SX : Shape := ⟨3, ![8, 2048, 1024]⟩
abbrev SW : Shape := ⟨2, ![512, 1024]⟩
abbrev SB : Shape := ⟨1, ![512]⟩
abbrev SO : Shape := ⟨3, ![8, 2048, 512]⟩

/-- One affine head at (batch p, row q, feature e): the contraction of row (p, q) of x with row e of the weights, plus
    the bias at e. -/
def affineAt (x : SX.Idx → EReal) (w : SW.Idx → EReal) (b : SB.Idx → EReal) (p : Fin 8) (q : Fin 2048) (e : Fin 512) : EReal :=
  (∑ k : Fin 1024, x (ix3 p q k) * w (ix2 e k)) + b (ix1 e)

/-- The first result: the affine head. -/
def mean (x : SX.Idx → EReal) (w : SW.Idx → EReal) (b : SB.Idx → EReal) : SO.Idx → EReal :=
  fun i => affineAt x w b (i 0) (i 1) (i 2)

/-- The second result: exp of half the affine head. -/
def spread (x : SX.Idx → EReal) (w : SW.Idx → EReal) (b : SB.Idx → EReal) : SO.Idx → EReal :=
  fun i => Ideal.exp (Ideal.ofBits .f32 0x3F000000#32 * affineAt x w b (i 0) (i 1) (i 2))

/-! ## The constants the reference's Gram factor spells -/

/-- The word of +0.0 denotes 0. -/
theorem ofBits_zero : Ideal.ofBits .f32 0x00000000#32 = 0 := by
  simp [Ideal.ofBits, Ideal.ieee]

/-- The word of 2.0 denotes the real 2. -/
theorem ofBits_two : Ideal.ofBits .f32 0x40000000#32 = ((2 : ℝ) : EReal) := by
  simp [Ideal.ofBits, Ideal.ieee, -EReal.coe_mul]; norm_num

/-! ## The Gram diagonal factor of a finite row is 1 -/

/-- A finite sum of products of reals, taken in the extended reals, is the real sum. -/
theorem sum_coe_mul {n : Nat} (a : Fin n → ℝ) :
    (∑ k : Fin n, ((a k : ℝ) : EReal) * ((a k : ℝ) : EReal)) = ((∑ k : Fin n, a k * a k : ℝ) : EReal) := by
  induction (Finset.univ : Finset (Fin n)) using Finset.induction_on with
  | empty => simp
  | insert k s hk ih => rw [Finset.sum_insert hk, Finset.sum_insert hk, ih, EReal.coe_add, EReal.coe_mul]

/-- For a row of reals, exp (-((0 + s) + (0 + s) - 2 s) / 2) = 1, s the row's sum of squares: the bracket is the
    real 0. -/
theorem gramDiag_eq_one {n : Nat} (a : Fin n → ℝ) :
    Ideal.exp (Ideal.div (-(((Ideal.ofBits .f32 0x00000000#32 + ∑ k : Fin n, ((a k : ℝ) : EReal) * ((a k : ℝ) : EReal))
        + (Ideal.ofBits .f32 0x00000000#32 + ∑ k : Fin n, ((a k : ℝ) : EReal) * ((a k : ℝ) : EReal)))
        - Ideal.ofBits .f32 0x40000000#32 * ∑ k : Fin n, ((a k : ℝ) : EReal) * ((a k : ℝ) : EReal)))
      (Ideal.ofBits .f32 0x40000000#32)) = 1 := by
  rw [sum_coe_mul, ofBits_zero, ofBits_two, zero_add, ← EReal.coe_add, ← EReal.coe_mul, ← EReal.coe_sub]
  have h0 : (∑ k : Fin n, a k * a k) + (∑ k : Fin n, a k * a k) - 2 * (∑ k : Fin n, a k * a k) = (0 : ℝ) := by ring
  rw [h0, EReal.coe_zero, neg_zero, Ideal.div_coe (by norm_num : (2 : ℝ) ≠ 0), zero_mul]
  show Ideal.exp ((0 : ℝ) : EReal) = 1
  rw [Ideal.exp_coe, Real.exp_zero]; rfl

end Cert.Heads

end
-- ==== Proof.PayRead.lean ====
/-
  The kernel body's shared value, read at one element, on the extended reals.

  The body loads a block of 512 rows of x (as [1, 512, 1024]), the whole joined weight matrix [1024, 1024] and the joined
  bias row [1, 1024]; narrows both matrix operands (a change of format, the identity on extended reals), multiplies them
  into a zero accumulator and adds the bias row broadcast down the rows. So at row r and column e it holds
    (sum over k of xblock[0, r, k] * W[k, e]) + b[0, e].
-/
import proofs.«170911_j59605556134142_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Heads.Kernel

open Cert.KernelIdeal Cert.KernelIdeal.Gen Idealize.ShloMosaic Idealize.ShloMosaic.ValueIdx

/-! ## The product's operand indices, axis by axis -/

/-- The left operand is read at the output's row … -/
theorem lhs_axis0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and the contracted column; -/
theorem lhs_axis1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the contracted row … -/
theorem rhs_axis0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and the output's column. -/
theorem rhs_axis1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The shared value at (r, e) -/

/-- Row r, column e of (x block) · W + bias row. -/
theorem pay1_apply (P0 : Vec Ideal S1x512x1024 .f32) (P1 : Vec Ideal S1024x1024 .f32) (P2 : Vec Ideal S1x1024 .f32)
    (r : Fin 512) (e : Fin 1024) :
    k0_pay1 (F := Ideal) P0 P1 P2 (ix2 r e)
      = (∑ k : Fin 1024, P0 (ix3 (0 : Fin 1) r k) * P1 (ix2 k e)) + P2 (ix2 (0 : Fin 1) e) := by
  unfold k0_pay1
  show FloatOps.matmul (F := Ideal) dot_S512x1024_S1024x1024_S512x1024_1_0_0_1_n_n none
        (truncf .bf16 (shapeCast S512x1024 P0 shapeCasts_S1x512x1024_S512x1024) bitsLt_bf16_f32)
        (truncf .bf16 (shapeCast S1024x1024 P1 shapeCasts_S1024x1024_S1024x1024) bitsLt_bf16_f32)
        (constant (F := Ideal) S512x1024 .f32 0x00000000#32) (ix2 r e)
      + broadcastTo S512x1024 (shapeCast S1x1024 P2 shapeCasts_S1x1024_S1x1024) broadcasts_S1x1024_S512x1024 (ix2 r e) = _
  rw [Ideal.matmul_constant_zero_apply, ← Equiv.sum_comp (contrEquiv1 dot_S512x1024_S1024x1024_S512x1024_1_0_0_1_n_n 1024 rfl rfl).symm]
  congr 1
  · refine Finset.sum_congr rfl fun k _ => ?_
    have hk := contrEquiv1_symm_val dot_S512x1024_S1024x1024_S512x1024_1_0_0_1_n_n 1024 rfl rfl k
    have el : dot_S512x1024_S1024x1024_S512x1024_1_0_0_1_n_n.lhsIdx (ix2 r e) ((contrEquiv1 dot_S512x1024_S1024x1024_S512x1024_1_0_0_1_n_n 1024 rfl rfl).symm k) = ix2 r k := funext fun a => Fin.ext (by
      match a with
      | ⟨0, _⟩ => exact lhs_axis0 _ _
      | ⟨1, _⟩ => exact (lhs_axis1 _ _).trans hk)
    have er : dot_S512x1024_S1024x1024_S512x1024_1_0_0_1_n_n.rhsIdx (ix2 r e) ((contrEquiv1 dot_S512x1024_S1024x1024_S512x1024_1_0_0_1_n_n 1024 rfl rfl).symm k) = ix2 k e := funext fun a => Fin.ext (by
      match a with
      | ⟨0, _⟩ => exact (rhs_axis0 _ _).trans hk
      | ⟨1, _⟩ => exact rhs_axis1 _ _)
    rw [el, er]
    show shapeCast S512x1024 P0 shapeCasts_S1x512x1024_S512x1024 (ix2 r k) * shapeCast S1024x1024 P1 shapeCasts_S1024x1024_S1024x1024 (ix2 k e) = _
    rw [shapeCast_1ab_ab_apply, shapeCast_self]
  · rw [shapeCast_self]
    exact broadcastTo_apply P2 broadcasts_S1x1024_S512x1024 (ix2 r e) (ix2 (0 : Fin 1) e) (fun a => match a with
      | ⟨0, _⟩ => by show 0 = if (1 : Nat) = 1 then 0 else _; rw [if_pos rfl]
      | ⟨1, _⟩ => by show e.val = if (1024 : Nat) = 1 then 0 else e.val; rw [if_neg (by decide)])

end Cert.Heads.Kernel

end
-- ==== Proof.KernelArrays.lean ====
/-
  The kernel's two result arrays after the run are the specification's functions of the arguments.

  Before the region the host lays the two weight matrices side by side, transposed — column e of the joined matrix is row e
  of the first matrix for e < 512 and row e - 512 of the second — and the two biases end to end as one row. Grid point t
  loads rows [512 j, 512 j + 512) of batch p of x (p, j the point's coordinates), the whole joined matrix and bias row, and
  writes back block (p, j) of each result: columns [0, 512) of (x block) · W + b to the first, exp of half of columns
  [512, 1024) to the second. The blocks tile both result arrays, so each array is the specification's function everywhere.
-/
import proofs.«170911_j59605556134142_1_alg».proof.Proof.Gen.KernelIdeal.Value
import proofs.«170911_j59605556134142_1_alg».proof.Proof.HeadSpec
import proofs.«170911_j59605556134142_1_alg».proof.Proof.PayRead
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.Heads.Kernel

open Cert.Heads Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The joined weights and bias, as the region finds them -/

/-- The joined weight matrix is the two transposed weight matrices side by side. -/
theorem joinedW_eq (c : Dev nD) :
    (V m c main_v2 : S1024x1024.Idx → EReal)
      = concatenate S1024x1024 1
          [⟨S1024x512, transpose S1024x512 [1, 0] (m ((c : Thread nD τ).loc main_arg1)) transposes_S512x1024_S1024x512_1_0⟩,
           ⟨S1024x512, transpose S1024x512 [1, 0] (m ((c : Thread nD τ).loc main_arg3)) transposes_S512x1024_S1024x512_1_0⟩]
          concatenates_S1024x512_S1024x512_S1024x1024_d1 := by
  unfold V; after_results

/-- The joined bias row is the two biases end to end, as one row. -/
theorem joinedB_eq (c : Dev nD) :
    (V m c main_v4 : S1x1024.Idx → EReal)
      = shapeCast S1x1024 (concatenate S1024 0 [⟨S512, m ((c : Thread nD τ).loc main_arg2)⟩, ⟨S512, m ((c : Thread nD τ).loc main_arg4)⟩]
          concatenates_S512_S512_S1024_d0) shapeCasts_S1024_S1x1024 := by
  unfold V; after_results; rfl

/-- Column e < 512 of the joined matrix is row e of the first weight matrix. -/
theorem joinedW_left (c : Dev nD) (k : Fin 1024) (e : Fin 512) :
    V m c main_v2 (ix2 k (⟨e.val, by omega⟩ : Fin 1024)) = m ((c : Thread nD τ).loc main_arg1) (ix2 e k) := by
  rw [joinedW_eq]
  refine (concatenate_pair_apply_left (s₁ := S1024x512) (s₂ := S1024x512) _ _ _ _ (ix2 k (⟨e.val, by omega⟩ : Fin 1024)) rfl (ix2 k e)
    (fun b => match b with | ⟨0, _⟩ => rfl | ⟨1, _⟩ => rfl)).trans ?_
  exact transpose_ix2_apply _ _ k e

/-- Column e + 512 of the joined matrix is row e of the second weight matrix. -/
theorem joinedW_right (c : Dev nD) (k : Fin 1024) (e : Fin 512) :
    V m c main_v2 (ix2 k (⟨e.val + 512, by omega⟩ : Fin 1024)) = m ((c : Thread nD τ).loc main_arg3) (ix2 e k) := by
  rw [joinedW_eq]
  refine (concatenate_pair_apply_right (s₁ := S1024x512) (s₂ := S1024x512) _ _ _ _ (ix2 k (⟨e.val + 512, by omega⟩ : Fin 1024)) rfl rfl (ix2 k e)
    (fun b => match b with | ⟨0, _⟩ => fun _ => rfl | ⟨1, _⟩ => fun h => absurd rfl h) rfl).trans ?_
  exact transpose_ix2_apply _ _ k e

/-- Entry e < 512 of the joined bias row is entry e of the first bias. -/
theorem joinedB_left (c : Dev nD) (u : Fin 1) (e : Fin 512) :
    V m c main_v4 (ix2 u (⟨e.val, by omega⟩ : Fin 1024)) = m ((c : Thread nD τ).loc main_arg2) (ix1 e) := by
  rw [joinedB_eq]
  refine (shapeCast_a_1a_apply _ _ u (⟨e.val, by omega⟩ : Fin 1024)).trans ?_
  exact concatenate_pair_apply_left (s₁ := S512) (s₂ := S512) _ _ _ _ (ix1 (⟨e.val, by omega⟩ : Fin 1024)) rfl (ix1 e)
    (fun b => match b with | ⟨0, _⟩ => rfl)

/-- Entry e + 512 of the joined bias row is entry e of the second bias. -/
theorem joinedB_right (c : Dev nD) (u : Fin 1) (e : Fin 512) :
    V m c main_v4 (ix2 u (⟨e.val + 512, by omega⟩ : Fin 1024)) = m ((c : Thread nD τ).loc main_arg4) (ix1 e) := by
  rw [joinedB_eq]
  refine (shapeCast_a_1a_apply _ _ u (⟨e.val + 512, by omega⟩ : Fin 1024)).trans ?_
  exact concatenate_pair_apply_right (s₁ := S512) (s₂ := S512) _ _ _ _ (ix1 (⟨e.val + 512, by omega⟩ : Fin 1024)) rfl rfl (ix1 e)
    (fun b => match b with | ⟨0, _⟩ => fun h => absurd rfl h) rfl

/-! ## The index maps over the grid -/

theorem zero3 : (![0, 0, 0] : Fin 3 → Nat) = fun _ => 0 := funext fun a => by fin_cases a <;> rfl
theorem zero2 : (![0, 0] : Fin 2 → Nat) = fun _ => 0 := funext fun a => by fin_cases a <;> rfl

/-- Decided over the 32 grid points: the block of x moves with the result blocks on the batch and row axes and spans all
    columns; the joined weights and bias are one block; both results use the same block index, with all 512 columns. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) < 8 ∧ win0_3.index t (1 : Fin 3) < 4 :=
  (by decide +kernel : ∀ t : Fin grid0.N, _)

/-- Every (batch, row block) pair is some point's block index, for both results. -/
theorem idx_onto : ∀ (q0 : Fin 8) (q1 : Fin 4), ∃ t : Fin cfg0.N,
    win0_3.index t = ![q0.val, q1.val, 0] ∧ win0_4.index t = ![q0.val, q1.val, 0] :=
  (by decide +kernel : ∀ (q0 : Fin 8) (q1 : Fin 4), ∃ t : Fin grid0.N,
    win0_3.index t = ![q0.val, q1.val, 0] ∧ win0_4.index t = ![q0.val, q1.val, 0])

/-! ## What a point writes back -/

/-- Point t writes back block t of the first specification function. -/
theorem flushed_mean (c : Dev nD) (t : Fin cfg0.N) :
    (dats m 0 c).flushed 3 t = ((cfg0.win 3).blk t).view.read (Elt Ideal)
      (mean (m ((c : Thread nD τ).loc main_arg0)) (m ((c : Thread nD τ).loc main_arg1)) (m ((c : Thread nD τ).loc main_arg2))) := by
  rw [Value.flushed3]
  refine funext fun (j : S1x512x512.Idx) => ?_
  obtain ⟨u, r, e, rfl⟩ : ∃ (u : Fin 1) (r : Fin 512) (e : Fin 512), j = ix3 u r e := ⟨j 0, j 1, j 2, eq_ix3 j⟩
  obtain ⟨f0, f1, f2, f3, f4, f5, f6, f7, f8, f9, f10, f11, f12⟩ := idx_facts t
  have hu : u.val = 0 := by omega
  show out0_3 (iblk m c 0 t) (iblk m c 1 t) (iblk m c 2 t) (ix3 u r e)
    = mean (m ((c : Thread nD τ).loc main_arg0)) (m ((c : Thread nD τ).loc main_arg1)) (m ((c : Thread nD τ).loc main_arg2))
        (((cfg0.win 3).blk t).view.emb (ix3 u r e))
  unfold out0_3
  rw [Value.canon3_eq]
  show k0_pay1 (View.ld (iblk m c 0 t) r0_0) (View.ld (iblk m c 1 t) r0_1) (View.ld (iblk m c 2 t) r0_2) (Value.ix3_0 (ix3 u r e)) = _
  rw [View.ld_unit_zero (S := S1x512x1024) zero3, View.ld_unit_zero (S := S1024x1024) zero2, View.ld_unit_zero (S := S1x1024) zero2]
  have hix : Value.ix3_0 (ix3 u r e) = ix2 r (⟨e.val, by omega⟩ : Fin 1024) := funext fun a => by
    match a with | ⟨0, _⟩ => rfl | ⟨1, _⟩ => rfl
  rw [hix]
  refine (pay1_apply (iblk m c 0 t) (iblk m c 1 t) (iblk m c 2 t) r (⟨e.val, by omega⟩ : Fin 1024)).trans ?_
  -- the point's rows of x, and its block's place in the result
  have hP : win0_3.index t (0 : Fin 3) * 1 + 1 * u.val < 8 := by omega
  have hQ : win0_3.index t (1 : Fin 3) * 512 + 1 * r.val < 2048 := by omega
  have hI : ((cfg0.win 3).blk t).view.emb (ix3 u r e)
      = ix3 (⟨win0_3.index t (0 : Fin 3) * 1 + 1 * u.val, hP⟩ : Fin 8) (⟨win0_3.index t (1 : Fin 3) * 512 + 1 * r.val, hQ⟩ : Fin 2048) e :=
    funext fun a => Fin.ext (by
      match a with
      | ⟨0, _⟩ => rfl
      | ⟨1, _⟩ => rfl
      | ⟨2, _⟩ => show win0_3.index t (2 : Fin 3) * 512 + 1 * e.val = e.val; omega)
  rw [hI]
  have h0 : ∀ k : Fin 1024, iblk m c 0 t (ix3 (0 : Fin 1) r k)
      = m ((c : Thread nD τ).loc main_arg0) (ix3 (⟨win0_3.index t (0 : Fin 3) * 1 + 1 * u.val, hP⟩ : Fin 8) (⟨win0_3.index t (1 : Fin 3) * 512 + 1 * r.val, hQ⟩ : Fin 2048) k) := fun k => by
    show V m c main_arg0 (((cfg0.win 0).blk t).view.emb (ix3 (0 : Fin 1) r k)) = _
    rw [V_main_arg0]
    refine congrArg _ (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 512 + 1 * r.val = win0_3.index t (1 : Fin 3) * 512 + 1 * r.val; omega
    | ⟨2, _⟩ => show win0_0.index t (2 : Fin 3) * 1024 + 1 * k.val = k.val; omega
  have h1 : ∀ k : Fin 1024, iblk m c 1 t (ix2 k (⟨e.val, by omega⟩ : Fin 1024)) = m ((c : Thread nD τ).loc main_arg1) (ix2 e k) := fun k => by
    show V m c main_v2 (((cfg0.win 1).blk t).view.emb (ix2 k (⟨e.val, by omega⟩ : Fin 1024))) = _
    rw [← joinedW_left m c k e]
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * e.val = e.val; omega
  have h2 : iblk m c 2 t (ix2 (0 : Fin 1) (⟨e.val, by omega⟩ : Fin 1024)) = m ((c : Thread nD τ).loc main_arg2) (ix1 e) := by
    show V m c main_v4 (((cfg0.win 2).blk t).view.emb (ix2 (0 : Fin 1) (⟨e.val, by omega⟩ : Fin 1024))) = _
    rw [← joinedB_left m c (0 : Fin 1) e]
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * e.val = e.val; omega
  rw [h2]
  simp only [h0, h1]
  rfl

/-- Point t writes back block t of the second specification function. -/
theorem flushed_spread (c : Dev nD) (t : Fin cfg0.N) :
    (dats m 0 c).flushed 4 t = ((cfg0.win 4).blk t).view.read (Elt Ideal)
      (spread (m ((c : Thread nD τ).loc main_arg0)) (m ((c : Thread nD τ).loc main_arg3)) (m ((c : Thread nD τ).loc main_arg4))) := by
  rw [Value.flushed4]
  refine funext fun (j : S1x512x512.Idx) => ?_
  obtain ⟨u, r, e, rfl⟩ : ∃ (u : Fin 1) (r : Fin 512) (e : Fin 512), j = ix3 u r e := ⟨j 0, j 1, j 2, eq_ix3 j⟩
  obtain ⟨f0, f1, f2, f3, f4, f5, f6, f7, f8, f9, f10, f11, f12⟩ := idx_facts t
  have hu : u.val = 0 := by omega
  show out0_4 (iblk m c 0 t) (iblk m c 1 t) (iblk m c 2 t) (ix3 u r e)
    = spread (m ((c : Thread nD τ).loc main_arg0)) (m ((c : Thread nD τ).loc main_arg3)) (m ((c : Thread nD τ).loc main_arg4))
        (((cfg0.win 4).blk t).view.emb (ix3 u r e))
  unfold out0_4
  rw [Value.canon4_eq]
  show Ideal.exp (Ideal.ofBits .f32 0x3F000000#32
      * k0_pay1 (View.ld (iblk m c 0 t) r0_0) (View.ld (iblk m c 1 t) r0_1) (View.ld (iblk m c 2 t) r0_2) (Value.ix4_0 (ix3 u r e))) = _
  rw [View.ld_unit_zero (S := S1x512x1024) zero3, View.ld_unit_zero (S := S1024x1024) zero2, View.ld_unit_zero (S := S1x1024) zero2]
  have hix : Value.ix4_0 (ix3 u r e) = ix2 r (⟨e.val + 512, by omega⟩ : Fin 1024) := funext fun a => by
    match a with | ⟨0, _⟩ => rfl | ⟨1, _⟩ => rfl
  rw [hix, pay1_apply (iblk m c 0 t) (iblk m c 1 t) (iblk m c 2 t) r (⟨e.val + 512, by omega⟩ : Fin 1024)]
  have hP : win0_3.index t (0 : Fin 3) * 1 + 1 * u.val < 8 := by omega
  have hQ : win0_3.index t (1 : Fin 3) * 512 + 1 * r.val < 2048 := by omega
  have hI : ((cfg0.win 4).blk t).view.emb (ix3 u r e)
      = ix3 (⟨win0_3.index t (0 : Fin 3) * 1 + 1 * u.val, hP⟩ : Fin 8) (⟨win0_3.index t (1 : Fin 3) * 512 + 1 * r.val, hQ⟩ : Fin 2048) e :=
    funext fun a => Fin.ext (by
      match a with
      | ⟨0, _⟩ => show win0_4.index t (0 : Fin 3) * 1 + 1 * u.val = win0_3.index t (0 : Fin 3) * 1 + 1 * u.val; omega
      | ⟨1, _⟩ => show win0_4.index t (1 : Fin 3) * 512 + 1 * r.val = win0_3.index t (1 : Fin 3) * 512 + 1 * r.val; omega
      | ⟨2, _⟩ => show win0_4.index t (2 : Fin 3) * 512 + 1 * e.val = e.val; omega)
  rw [hI]
  have h0 : ∀ k : Fin 1024, iblk m c 0 t (ix3 (0 : Fin 1) r k)
      = m ((c : Thread nD τ).loc main_arg0) (ix3 (⟨win0_3.index t (0 : Fin 3) * 1 + 1 * u.val, hP⟩ : Fin 8) (⟨win0_3.index t (1 : Fin 3) * 512 + 1 * r.val, hQ⟩ : Fin 2048) k) := fun k => by
    show V m c main_arg0 (((cfg0.win 0).blk t).view.emb (ix3 (0 : Fin 1) r k)) = _
    rw [V_main_arg0]
    refine congrArg _ (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 512 + 1 * r.val = win0_3.index t (1 : Fin 3) * 512 + 1 * r.val; omega
    | ⟨2, _⟩ => show win0_0.index t (2 : Fin 3) * 1024 + 1 * k.val = k.val; omega
  have h1 : ∀ k : Fin 1024, iblk m c 1 t (ix2 k (⟨e.val + 512, by omega⟩ : Fin 1024)) = m ((c : Thread nD τ).loc main_arg3) (ix2 e k) := fun k => by
    show V m c main_v2 (((cfg0.win 1).blk t).view.emb (ix2 k (⟨e.val + 512, by omega⟩ : Fin 1024))) = _
    rw [← joinedW_right m c k e]
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * (e.val + 512) = e.val + 512; omega
  have h2 : iblk m c 2 t (ix2 (0 : Fin 1) (⟨e.val + 512, by omega⟩ : Fin 1024)) = m ((c : Thread nD τ).loc main_arg4) (ix1 e) := by
    show V m c main_v4 (((cfg0.win 2).blk t).view.emb (ix2 (0 : Fin 1) (⟨e.val + 512, by omega⟩ : Fin 1024))) = _
    rw [← joinedB_right m c (0 : Fin 1) e]
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * (e.val + 512) = e.val + 512; omega
  rw [h2]
  simp only [h0, h1]
  rfl

/-! ## The blocks tile the result arrays -/

/-- An index is in point t's block of the first result iff each coordinate is in the block's range on its axis. -/
theorem mem_blk3 (t : Fin cfg0.N) (i : S8x2048x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v5_0).slice (win0_3.rect t)).set ↔ _
  rw [View.set_slice_whole, Rect.mem_set_unit]
  exact Iff.rfl

/-- The same for the second result. -/
theorem mem_blk4 (t : Fin cfg0.N) (i : S8x2048x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v5_1).slice (win0_4.rect t)).set ↔ _
  rw [View.set_slice_whole, Rect.mem_set_unit]
  exact Iff.rfl

/-- Every index of the first result lies in the block of the point (batch, row / 512). -/
theorem cover3 (i : S8x2048x512.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  obtain ⟨t, ht, -⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- Every index of the second result lies in the block of the point (batch, row / 512). -/
theorem cover4 (i : S8x2048x512.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 512 := (i 2).isLt
  obtain ⟨t, -, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-! ## The result arrays, and the run -/

/-- The first result array after the run is the affine head with the first weights and bias. -/
theorem final_mean (c : Dev nD) : (dats m 0 c).arrAt 3 cfg0.N
    = mean (m ((c : Thread nD τ).loc main_arg0)) (m ((c : Thread nD τ).loc main_arg1)) (m ((c : Thread nD τ).loc main_arg2)) :=
  (dats m 0 c).arrAt_eq_of_cover 3 _ (fun t _ => flushed_mean m c t) cover3

/-- The second result array after the run is exp of half the affine head with the second weights and bias. -/
theorem final_spread (c : Dev nD) : (dats m 0 c).arrAt 4 cfg0.N
    = spread (m ((c : Thread nD τ).loc main_arg0)) (m ((c : Thread nD τ).loc main_arg3)) (m ((c : Thread nD τ).loc main_arg4)) :=
  (dats m 0 c).arrAt_eq_of_cover 4 _ (fun t _ => flushed_spread m c t) cover4

/-- The kernel's run: it terminates with the two results at the specification's functions of the arguments, the arguments
    unchanged. -/
theorem run : θ_run defs (onTc (τ := τ) (main (F := Ideal))) ⟨m, fun _ => 0, ρ⟩ fun r => ∀ c : Dev nD,
      r.2.mem ((c : Thread nD τ).loc main_v5_0)
        = mean (m ((c : Thread nD τ).loc main_arg0)) (m ((c : Thread nD τ).loc main_arg1)) (m ((c : Thread nD τ).loc main_arg2))
      ∧ r.2.mem ((c : Thread nD τ).loc main_v5_1)
        = spread (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_mean m c), (h c).2.1.trans (final_spread m c), (h c).2.2⟩)
    (Value.run_blocks m ρ)

end Cert.Heads.Kernel

end
-- ==== Proof.RefRead.lean ====
/-
  The reference's two results are the specification.

  The first result is the affine head as it stands. The second is exp (1/2 * head) times the diagonal of the Gaussian Gram
  matrix of the rows of x. That diagonal is taken by a gather whose start indices are the pairs (q, q): each coordinate is
  the counter q made non-negative the usual way (q + 2048 where q < 0, which never happens for 0 <= q < 2048), so entry
  (p, q) of the gather is entry (p, q, q) of the Gram matrix, and on a finite row that entry is 1.
-/
import proofs.«170911_j59605556134142_1_alg».proof.Proof.Gen.ReferenceIdeal.Read
import proofs.«170911_j59605556134142_1_alg».proof.Proof.HeadSpec
import Idealize.ShloMosaic.Lib.ValueIdx
import Idealize.ShloMosaic.Lib.Pipeline.Value
import Idealize.ShloMosaic.Lib.DynamicIndex

noncomputable section

open scoped BigOperators

namespace Cert.Heads.Ref

open Cert.Heads Cert.ReferenceIdeal Cert.ReferenceIdeal.Gen Cert.ReferenceIdeal.Read Idealize.ShloMosaic Idealize.ShloMosaic.ValueIdx

/-! ## The first result -/

/-- The reference's first result is the affine head of x with the first weight matrix and bias. -/
theorem mean_eq (x0 : SX.Idx → EReal) (x1 : SW.Idx → EReal) (x2 : SB.Idx → EReal) :
    val_main_v3 (F := Ideal) x0 x1 x2 = mean x0 x1 x2 := by
  funext i
  have e1 : ∀ k, lidx_main_v0 i k = ix3 (i 0) (i 1) k := fun k => funext fun a => by
    match a with | ⟨0, _⟩ => rfl | ⟨1, _⟩ => rfl | ⟨2, _⟩ => rfl
  have e2 : ∀ k, ridx_main_v0 i k = ix2 (i 2) k := fun k => funext fun a => by
    match a with | ⟨0, _⟩ => rfl | ⟨1, _⟩ => rfl
  have e3 : idx_main_v1 (idx_main_v2 i) = ix1 (i 2) := funext fun a => by
    match a with | ⟨0, _⟩ => rfl
  rw [val_main_v3_apply, val_main_v0_apply, val_main_v2_apply, val_main_v1_apply, e3]
  simp only [e1, e2]
  rfl

/-! ## The start indices of the diagonal gather -/

/-- A counter below 2^31, made non-negative the usual way (itself unless negative), is itself. -/
theorem wrap_counter (q : Nat) (hq : q < 2 ^ 31) (X : BitVec 32) :
    Scalar.select (IntOp.cmpi .slt (BitVec.ofNat 32 q) 0#32) X (BitVec.ofNat 32 q) = BitVec.ofNat 32 q := by
  have hlt : (BitVec.ofNat 32 q).slt 0#32 = false := by
    simp only [BitVec.slt, BitVec.toInt_zero, decide_eq_false_iff_not, Int.not_lt]
    rw [toInt_ofNat_of_lt hq]; omega
  show (if BitVec.ofBool ((BitVec.ofNat 32 q).slt 0#32) = 1 then _ else _) = _
  rw [hlt]
  rfl

/-- Column 0 of the start indices at row q is q. -/
theorem start_col0 (q : Fin 2048) : val_main_call0_v14 (F := Ideal) (ix2 q (0 : Fin 2)) = BitVec.ofNat 32 q.val := by
  unfold val_main_call0_v14
  refine (concatenate_pair_apply_left (s₁ := S2048x1) (s₂ := S2048x1) _ _ _ _ (ix2 q (0 : Fin 2)) rfl (ix2 q (0 : Fin 1))
    (fun b => match b with | ⟨0, _⟩ => rfl | ⟨1, _⟩ => rfl)).trans ?_
  rw [val_main_call0_v12_apply, val_main_call0_v6_apply, val_main_call0_v3_apply, val_main_call0_v0_apply,
    val_main_call0_v2_apply, val_main_call0_c_apply]
  exact wrap_counter q.val (by have := q.isLt; omega) _

/-- Column 1 of the start indices at row q is q too. -/
theorem start_col1 (q : Fin 2048) : val_main_call0_v14 (F := Ideal) (ix2 q (1 : Fin 2)) = BitVec.ofNat 32 q.val := by
  unfold val_main_call0_v14
  refine (concatenate_pair_apply_right (s₁ := S2048x1) (s₂ := S2048x1) _ _ _ _ (ix2 q (1 : Fin 2)) rfl rfl (ix2 q (0 : Fin 1))
    (fun b => match b with | ⟨0, _⟩ => fun _ => rfl | ⟨1, _⟩ => fun h => absurd rfl h) rfl).trans ?_
  rw [val_main_call0_v13_apply, val_main_call0_v11_apply, val_main_call0_v8_apply, val_main_call0_v1_apply,
    val_main_call0_v7_apply, val_main_call0_c_1_apply]
  exact wrap_counter q.val (by have := q.isLt; omega) _

/-! ## The gather reads the diagonal -/

/-- Entry (p, q) of the gather is entry (p, q, q) of the Gram matrix: the batch coordinate is kept, and both collapsed
    axes start at the clamped start index q. -/
theorem diag_read (x0 : SX.Idx → EReal) (p : Fin 8) (q : Fin 2048) :
    val_main_v26 (F := Ideal) x0 (ix2 p q) = val_main_v25 (F := Ideal) x0 (ix3 p q q) := by
  have hq : q.val < 2048 := q.isLt
  unfold val_main_v26 Host.gather
  refine congrArg _ (funext fun a => Fin.ext ?_)
  match a with
  | ⟨0, _⟩ =>
    show gather_S8x2048x2048_S2048x2_S8x2048_0_12_n_n_12_1_811.start (ix2 p q) (val_main_call0_v14 (F := Ideal)) 0
      + gather_S8x2048x2048_S2048x2_S8x2048_0_12_n_n_12_1_811.batchCoord (ix2 p q) 0
      + gather_S8x2048x2048_S2048x2_S8x2048_0_12_n_n_12_1_811.offCoord (ix2 p q) 0 = p.val
    rw [GatherDims.batchCoord_eq_zero _ _ _ (by decide), Nat.add_zero]
    unfold GatherDims.start GatherDims.offCoord
    rw [dif_neg (by decide), dif_pos (by decide), Nat.zero_add]
    rfl
  | ⟨1, _⟩ =>
    show gather_S8x2048x2048_S2048x2_S8x2048_0_12_n_n_12_1_811.start (ix2 p q) (val_main_call0_v14 (F := Ideal)) 1
      + gather_S8x2048x2048_S2048x2_S8x2048_0_12_n_n_12_1_811.batchCoord (ix2 p q) 1
      + gather_S8x2048x2048_S2048x2_S8x2048_0_12_n_n_12_1_811.offCoord (ix2 p q) 1 = q.val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    have hsi : gather_S8x2048x2048_S2048x2_S8x2048_0_12_n_n_12_1_811.siIdx (ix2 p q)
        ⟨List.idxOf (1 : Fin S8x2048x2048.rank) gather_S8x2048x2048_S2048x2_S8x2048_0_12_n_n_12_1_811.startIndexMap,
          List.idxOf_lt_length_iff.2 (by decide)⟩ = ix2 q (0 : Fin 2) := by
      funext b; refine Fin.ext ?_
      match b with
      | ⟨0, _⟩ => rfl
      | ⟨1, _⟩ => rfl
    rw [hsi, start_col0]
    show min (BitVec.ofNat 32 q.val).toInt.toNat (2048 - 1) = q.val
    rw [toInt_ofNat_of_lt (by omega), Int.toNat_natCast]
    omega
  | ⟨2, _⟩ =>
    show gather_S8x2048x2048_S2048x2_S8x2048_0_12_n_n_12_1_811.start (ix2 p q) (val_main_call0_v14 (F := Ideal)) 2
      + gather_S8x2048x2048_S2048x2_S8x2048_0_12_n_n_12_1_811.batchCoord (ix2 p q) 2
      + gather_S8x2048x2048_S2048x2_S8x2048_0_12_n_n_12_1_811.offCoord (ix2 p q) 2 = q.val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    have hsi : gather_S8x2048x2048_S2048x2_S8x2048_0_12_n_n_12_1_811.siIdx (ix2 p q)
        ⟨List.idxOf (2 : Fin S8x2048x2048.rank) gather_S8x2048x2048_S2048x2_S8x2048_0_12_n_n_12_1_811.startIndexMap,
          List.idxOf_lt_length_iff.2 (by decide)⟩ = ix2 q (1 : Fin 2) := by
      funext b; refine Fin.ext ?_
      match b with
      | ⟨0, _⟩ => rfl
      | ⟨1, _⟩ => rfl
    rw [hsi, start_col1]
    show min (BitVec.ofNat 32 q.val).toInt.toNat (2048 - 1) = q.val
    rw [toInt_ofNat_of_lt (by omega), Int.toNat_natCast]
    omega

/-! ## The Gram matrix at an entry -/

/-- Entry (p, q, r) of the Gaussian Gram matrix: exp (-((|x_q|^2 + |x_r|^2) - 2 <x_q, x_r>) / 2), the squared norms summed
    from a zero initial value. -/
theorem gram_entry (x0 : SX.Idx → EReal) (p : Fin 8) (q r : Fin 2048) :
    val_main_v25 (F := Ideal) x0 (ix3 p q r)
      = Ideal.exp (Ideal.div (-(((Ideal.ofBits .f32 0x00000000#32 + ∑ k : Fin 1024, x0 (ix3 p q k) * x0 (ix3 p q k))
          + (Ideal.ofBits .f32 0x00000000#32 + ∑ k : Fin 1024, x0 (ix3 p r k) * x0 (ix3 p r k)))
          - Ideal.ofBits .f32 0x40000000#32 * ∑ k : Fin 1024, x0 (ix3 p q k) * x0 (ix3 p r k)))
        (Ideal.ofBits .f32 0x40000000#32)) := by
  have e1 : ∀ k, idx_main_v12 (idx_main_v14 (idx_main_v16 (ix3 p q r))) k = ix3 p q k := fun k => funext fun a => by
    match a with | ⟨0, _⟩ => rfl | ⟨1, _⟩ => rfl | ⟨2, _⟩ => rfl
  have e2 : ∀ k, idx_main_v12 (idx_main_v15 (idx_main_v17 (ix3 p q r))) k = ix3 p r k := fun k => funext fun a => by
    match a with | ⟨0, _⟩ => rfl | ⟨1, _⟩ => rfl | ⟨2, _⟩ => rfl
  have e3 : ∀ k, lidx_main_v13 (ix3 p q r) k = ix3 p q k := fun k => funext fun a => by
    match a with | ⟨0, _⟩ => rfl | ⟨1, _⟩ => rfl | ⟨2, _⟩ => rfl
  have e4 : ∀ k, ridx_main_v13 (ix3 p q r) k = ix3 p r k := fun k => funext fun a => by
    match a with | ⟨0, _⟩ => rfl | ⟨1, _⟩ => rfl | ⟨2, _⟩ => rfl
  rw [val_main_v25_apply, val_main_v24_apply, val_main_v22_apply, val_main_v23_apply, val_main_cst_2_apply,
    val_main_v21_apply, val_main_v18_apply, val_main_v16_apply, val_main_v14_apply, val_main_v12_apply,
    val_main_v17_apply, val_main_v15_apply, val_main_v12_apply, val_main_cst_0_apply,
    val_main_v20_apply, val_main_v19_apply, val_main_cst_1_apply, val_main_v13_apply]
  simp only [e1, e2, e3, e4, val_main_v11_apply]
  rfl

/-! ## The second result -/

/-- On finite x the reference's second result is exp of half the affine head of x with the second weight matrix and bias:
    the Gram diagonal it multiplies by is 1. -/
theorem spread_eq (x0 : SX.Idx → EReal) (x3 : SW.Idx → EReal) (x4 : SB.Idx → EReal)
    (hx : ∀ j, ∃ r : ℝ, x0 j = (r : EReal)) :
    val_main_v29 (F := Ideal) x0 x3 x4 = spread x0 x3 x4 := by
  refine funext fun (i : S8x2048x512.Idx) => ?_
  obtain ⟨p, q, e, rfl⟩ : ∃ (p : Fin 8) (q : Fin 2048) (e : Fin 512), i = ix3 p q e := ⟨i 0, i 1, i 2, eq_ix3 i⟩
  have hd : val_main_v28 (F := Ideal) x0 (ix3 p q e) = 1 := by
    have ei : idx_main_v27 (idx_main_v28 (ix3 p q e)) = ix2 p q := funext fun a => by
      match a with | ⟨0, _⟩ => rfl | ⟨1, _⟩ => rfl
    rw [val_main_v28_apply, val_main_v27_apply, ei, diag_read, gram_entry]
    choose a ha using hx
    simp only [ha]
    exact gramDiag_eq_one fun k => a (ix3 p q k)
  have e1 : ∀ k, lidx_main_v4 (ix3 p q e) k = ix3 p q k := fun k => funext fun a => by
    match a with | ⟨0, _⟩ => rfl | ⟨1, _⟩ => rfl | ⟨2, _⟩ => rfl
  have e2 : ∀ k, ridx_main_v4 (ix3 p q e) k = ix2 e k := fun k => funext fun a => by
    match a with | ⟨0, _⟩ => rfl | ⟨1, _⟩ => rfl
  have e3 : idx_main_v5 (idx_main_v6 (ix3 p q e)) = ix1 e := funext fun a => by
    match a with | ⟨0, _⟩ => rfl
  rw [val_main_v29_apply, hd, val_main_v10_apply, val_main_v9_apply, val_main_v8_apply, val_main_cst_apply,
    val_main_v7_apply, val_main_v4_apply, val_main_v6_apply, val_main_v5_apply, e3]
  simp only [e1, e2]
  show Ideal.exp (Ideal.ofBits .f32 0x3F000000#32 * ((∑ k : Fin 1024, x0 (ix3 p q k) * x3 (ix2 e k)) + x4 (ix1 e))) * 1 = _
  rw [mul_one]
  rfl

end Cert.Heads.Ref

end
-- ==== Proof.FiniteX.lean ====
/-
  What the precondition says about x: every entry is a real number.

  The precondition is a conjunction, one conjunct per argument, each "every entry's absolute value is below +infinity",
  reduced by "and" over the whole array. The first conjunct, read at one entry of x, says max (x, -x) < +infinity, which
  excludes both infinities.
-/
import proofs.«170911_j59605556134142_1_alg».proof.Defs
import proofs.«170911_j59605556134142_1_alg».proof.Proof.Gen.Pre_finite_inputs
import Idealize.ShloMosaic.Lib.ReduceAll
import Idealize.ShloMosaic.Lib.ValueIdx

noncomputable section

namespace Cert.Heads.Finite

open Idealize.ShloMosaic Idealize.ShloMosaic.TcCoe Idealize.SL.Sem Idealize.ShloMosaic.ValueIdx

/-- The word of +infinity denotes the top element. -/
theorem ofBits_inf : Ideal.ofBits .f32 0x7F800000#32 = ⊤ := by
  simp [Ideal.ofBits, Ideal.ieee]

/-- An extended real whose absolute value compares below +infinity is a real. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exact absurd hlt (by simp)
  | top => exact absurd hlt (by simp)
  | coe r => exact ⟨r, rfl⟩

/-- The scalar shape has one index. -/
instance : Subsingleton Cert.Pre_finite_inputs.S_.Idx := ⟨fun a b => funext fun d => d.elim0⟩

/-- Under the precondition every entry of x, on every device, is a real. -/
theorem x_finite (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.KernelIdeal.S8x2048x1024.Idx) :
    ∃ r : ℝ, m ((c.tc : Thread Cert.KernelIdeal.nD Cert.KernelIdeal.τ).loc Cert.KernelIdeal.main_arg0) j = (r : EReal) := by
  have h1 := congrFun (hpre c) ix0
  dsimp only [Cert.Pre_finite_inputs.fn, Cert.Pre_finite_inputs.fn_part1] at h1
  have hA := (IntOp.andi_eq_one.mp h1).1
  have hB := (IntOp.andi_eq_one.mp hA).1
  have hC := (IntOp.andi_eq_one.mp hB).1
  have hD := (IntOp.andi_eq_one.mp hC).1
  have hE := Host.reduce_andi_all _ _ _ _ ix0 hD j
  exact real_of_abs_lt_inf _ hE

end Cert.Heads.Finite

end
-- ==== Proof.lean ====
/-
  Two affine heads of x — mean = x · W_mu^T + b_mu and spread = exp (1/2 (x · W_logvar^T + b_logvar)) — computed by one
  kernel over the two weight matrices laid side by side, against a reference that computes the heads separately and
  multiplies the second by the diagonal of a Gaussian Gram matrix of the rows of x.

  On the extended reals both programs end with the same two arrays (Proof/HeadSpec.lean states them):
    * the kernel's result blocks tile the arrays and each is the specification's function of the arguments
      (Proof/PayRead.lean: the body's product at an element; Proof/KernelArrays.lean: the joined weights, the blocks, the cover);
    * the reference's first result is the head as written; its Gram diagonal — read by a gather at the pairs (q, q) — is
      exp (-((s + s) - 2 s) / 2) with s the row's sum of squares, which is exp 0 = 1 because the precondition makes every
      entry of x a real (Proof/FiniteX.lean), so its second result is the spread as written (Proof/RefRead.lean).
  The three frames are the generated ones (the reference's from its run, the results dropped); the kernel's idealization
  rewrote nothing, so there is nothing to preserve.
-/
import proofs.«170911_j59605556134142_1_alg».proof.Defs
import proofs.«170911_j59605556134142_1_alg».proof.Proof.Gen.Kernel
import proofs.«170911_j59605556134142_1_alg».proof.Proof.Gen.Kernel.Skeleton
import proofs.«170911_j59605556134142_1_alg».proof.Proof.Gen.Kernel.Launch
import proofs.«170911_j59605556134142_1_alg».proof.Proof.Gen.Kernel.Points
import proofs.«170911_j59605556134142_1_alg».proof.Proof.Gen.Kernel.Frame
import proofs.«170911_j59605556134142_1_alg».proof.Proof.Gen.KernelIdeal
import proofs.«170911_j59605556134142_1_alg».proof.Proof.Gen.KernelIdeal.Skeleton
import proofs.«170911_j59605556134142_1_alg».proof.Proof.Gen.KernelIdeal.Launch
import proofs.«170911_j59605556134142_1_alg».proof.Proof.Gen.KernelIdeal.Points
import proofs.«170911_j59605556134142_1_alg».proof.Proof.Gen.KernelIdeal.Frame
import proofs.«170911_j59605556134142_1_alg».proof.Proof.Gen.ReferenceIdeal
import proofs.«170911_j59605556134142_1_alg».proof.Proof.Gen.Pre_finite_inputs
import proofs.«170911_j59605556134142_1_alg».proof.Proof.Gen.KernelIdeal.Value
import proofs.«170911_j59605556134142_1_alg».proof.Proof.Gen.ReferenceIdeal.Run
import proofs.«170911_j59605556134142_1_alg».proof.Proof.Gen.ReferenceIdeal.Read
import proofs.«170911_j59605556134142_1_alg».proof.Proof.HeadSpec
import proofs.«170911_j59605556134142_1_alg».proof.Proof.PayRead
import proofs.«170911_j59605556134142_1_alg».proof.Proof.KernelArrays
import proofs.«170911_j59605556134142_1_alg».proof.Proof.RefRead
import proofs.«170911_j59605556134142_1_alg».proof.Proof.FiniteX
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the mean and the spread of the shared arguments. -/
theorem algebraic : Cert.algebraic_KernelIdeal_ReferenceIdeal := by
  intro m ρ m' ρ' hpre hagree
  refine ⟨_, _, Cert.Heads.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1]
    exact (Cert.ReferenceIdeal.Read.val_main_v3_eq _ _ _).trans (Cert.Heads.Ref.mean_eq _ _ _)
  · rw [(hagree c).1, (hagree c).2.2.2.1, (hagree c).2.2.2.2]
    exact (Cert.ReferenceIdeal.Read.val_main_v29_eq _ _ _).trans
      (Cert.Heads.Ref.spread_eq _ _ _ (Cert.Heads.Finite.x_finite m hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
